-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S16x2048x2048 : Shape := ⟨3, ![16, 2048, 2048]⟩
abbrev S_ : Shape := ⟨0, ![]⟩
abbrev S16x2048 : Shape := ⟨2, ![16, 2048]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel
  reducesTo_S16x2048x2048_S16x2048_d2 : S16x2048x2048.ReducesTo [2] S16x2048
  reducesTo_S16x2048_S_d0_1 : S16x2048.ReducesTo [0, 1] S_

variable [Facts]

def fn_part1 {F : FTy → Type} [FloatOps F] (main_v13 : IVec S_ 1) (main_v15 : IVec S16x2048 1) (main_c_5 : IVec S_ 1) : IVec S_ 1 :=
  let main_v16 : IVec S_ 1 := (fun x v => Host.reduce IntOp.andi x v reducesTo_S16x2048_S_d0_1 h_S_) main_v15 main_c_5
  let main_v17 : IVec S_ 1 := andi main_v13 main_v16
  main_v17

def fn {F : FTy → Type} [FloatOps F] (main_arg0 : FVec F S16x2048x64 .f32) (main_arg1 : FVec F S16x2048x64 .f32) (main_arg2 : FVec F S16x2048x64 .f32) (main_arg3 : IVec S16x2048x2048 1) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S16x2048x64 .f32 := Host.absf main_arg1
  let main_cst_0 : FVec F S_ .f32 := constant S_ .f32 0x7F800000#32
  let main_v5 : FVec F S16x2048x64 .f32 := broadcastInDim S16x2048x64 ![] bcast_S_S16x2048x64 main_cst_0
  let main_v6 : IVec S16x2048x64 1 := cmpf .olt main_v4 main_v5
  let main_c_1 : IVec S_ 1 := constantI S_ 1 1#1
  let main_v7 : IVec S_ 1 := (fun x v => Host.reduce IntOp.andi x v reducesTo_S16x2048x64_S_d0_1_2 h_S_) main_v6 main_c_1
  let main_v8 : IVec S_ 1 := andi main_v3 main_v7
  let main_v9 : FVec F S16x2048x64 .f32 := Host.absf main_arg2
  let main_cst_2 : FVec F S_ .f32 := constant S_ .f32 0x7F800000#32
  let main_v10 : FVec F S16x2048x64 .f32 := broadcastInDim S16x2048x64 ![] bcast_S_S16x2048x64 main_cst_2
  let main_v11 : IVec S16x2048x64 1 := cmpf .olt main_v9 main_v10
  let main_c_3 : IVec S_ 1 := constantI S_ 1 1#1
  let main_v12 : IVec S_ 1 := (fun x v => Host.reduce IntOp.andi x v reducesTo_S16x2048x64_S_d0_1_2 h_S_) main_v11 main_c_3
  let main_v13 : IVec S_ 1 := andi main_v8 main_v12
  let main_v14 : IVec S16x2048x2048 1 := noti main_arg3
  let main_c_4 : IVec S_ 1 := constantI S_ 1 0#1
  let main_v15 : IVec S16x2048 1 := (fun x v => Host.reduce IntOp.ori x v reducesTo_S16x2048x2048_S16x2048_d2 h_S_) main_v14 main_c_4
  let main_c_5 : IVec S_ 1 := constantI S_ 1 1#1
  fn_part1 (F := F) main_v13 main_v15 main_c_5
-- ==== Kernel.lean ====
abbrev S16x2048x64 : Shape := ⟨3, ![16, 2048, 64]⟩
abbrev S16x2048x2048 : Shape := ⟨3, ![16, 2048, 2048]⟩
abbrev S1x1024x64 : Shape := ⟨3, ![1, 1024, 64]⟩
abbrev S1x2048x64 : Shape := ⟨3, ![1, 2048, 64]⟩
abbrev S1x1024x2048 : Shape := ⟨3, ![1, 1024, 2048]⟩
abbrev S1024x64 : Shape := ⟨2, ![1024, 64]⟩
abbrev S2048x64 : Shape := ⟨2, ![2048, 64]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x2048, .i1⟩
  | .hbm, ⟨4, _⟩ => ⟨S16x2048x2048, .i32⟩
  | .hbm, ⟨5, _⟩ => ⟨S16x2048x64, .f32⟩
  | .local _ .vmem, ⟨0, _⟩ => ⟨S1x1024x64, .f32⟩
  | .local _ .vmem, ⟨1, _⟩ => ⟨S1x1024x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x1024x2048, .i32⟩
  | .local _ .vmem, ⟨7, _⟩ => ⟨S1x1024x2048, .i32⟩
  | .local _ .vmem, ⟨8, _⟩ => ⟨S1x1024x64, .f32⟩
  | .local _ .vmem, ⟨9, _⟩ => ⟨S1x1024x64, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  natLt_1_32 : 1 < 32
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  reduces_S1024x2048_S1024 : S1024x2048.Reduces [1] S1024
  shapeCasts_S1024_S1024x1 : S1024.ShapeCasts S1024x1
  broadcasts_S1024x1_S1024x64 : S1024x1.Broadcasts S1024x64
  shapeCasts_S1024x64_S1x1024x64 : S1024x64.ShapeCasts S1x1024x64
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S16x2048x64.size a
  hwx0_0 : ∀ i : grid0.Coords, EltTy.bits .f32 = 32 ∨ (Rect.block (s := S16x2048x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S16x2048x64.size a
  hwx0_1 : ∀ i : grid0.Coords, EltTy.bits .f32 = 32 ∨ (Rect.block (s := S16x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S16x2048x64.size a
  hwx0_2 : ∀ i : grid0.Coords, EltTy.bits .f32 = 32 ∨ (Rect.block (s := S16x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x2048.size a ≤ S16x2048x2048.size a
  hwx0_3 : ∀ i : grid0.Coords, EltTy.bits .i32 = 32 ∨ (Rect.block (s := S16x2048x2048) S1x1024x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x64.size a ≤ S16x2048x64.size a
  hwx0_4 : ∀ i : grid0.Coords, EltTy.bits .f32 = 32 ∨ (Rect.block (s := S16x2048x64) S1x1024x64.size (cc0_transform_4 i) (hinb0_4 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x2048x64 : Shape := ⟨3, ![16, 2048, 64]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 19
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x2048, .i1⟩
  | .hbm, ⟨4, _⟩ => ⟨S16x2048x2048, .f32⟩
  | .hbm, ⟨5, _⟩ => ⟨S_, .f32⟩
  | .hbm, ⟨6, _⟩ => ⟨S16x2048x2048, .f32⟩
  | .hbm, ⟨7, _⟩ => ⟨S16x2048x2048, .f32⟩
  | .hbm, ⟨8, _⟩ => ⟨S16x2048x2048, .f32⟩
  | .hbm, ⟨9, _⟩ => ⟨S_, .f32⟩
  | .hbm, ⟨10, _⟩ => ⟨S_, .f32⟩
  | .hbm, ⟨11, _⟩ => ⟨S16x2048x2048, .f32⟩
  | .hbm, ⟨12, _⟩ => ⟨S16x2048x2048, .f32⟩
  | .hbm, ⟨13, _⟩ => ⟨S_, .f32⟩
  | .hbm, ⟨14, _⟩ => ⟨S16x2048, .f32⟩
  | .hbm, ⟨15, _⟩ => ⟨S16x2048x1, .f32⟩
  | .hbm, ⟨16, _⟩ => ⟨S16x2048x2048, .f32⟩
  | .hbm, ⟨17, _⟩ => ⟨S16x2048x2048, .f32⟩
  | .hbm, ⟨18, _⟩ => ⟨S16x2048x64, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x64_S16x2048x64_S16x2048x2048_2_2_1_1_0_0_wf : DotDims.WF S16x2048x64 S16x2048x64 S16x2048x2048 [2] [2] [1] [1] [0] [0]
  dot_S16x2048x2048_S16x2048x64_S16x2048x64_2_1_1_2_0_0_wf : DotDims.WF S16x2048x2048 S16x2048x64 S16x2048x64 [2] [1] [1] [2] [0] [0]

variable [Facts₀]

def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.PreRead.lean ====
/-
  What the precondition says of the four argument arrays, read back from its printed form.

  The printed predicate is a conjunction of four `jnp.all`s. The first three say `|x| < +∞` at every entry of the
  queries, the keys and the values: on the extended reals that is "the entry is a real number". The fourth says
  that in every query row of the mask SOME key is unmasked: it is an `or`-reduction of the negated mask along the
  key axis, required to be 1 at every row.
-/
import proofs.«426548_j37125697307285_3_alg».proof.Pre_finite_inputs
import Idealize.ShloMosaic.Lib.ReduceAll
import Idealize.ShloMosaic.Lib.ValueIdx
import Idealize.ShloMosaic.PureOps.Ideal.Laws

noncomputable section

namespace Cert.Attn.PreRead

open Idealize.ShloMosaic Idealize.ShloMosaic.ValueIdx Cert.Pre_finite_inputs

/-- A left fold by `or` over one-bit words that came out 1 started at 1 or met a 1. -/
theorem foldl_ori_eq_one {ι : Type} (f : ι → BitVec 1) :
    ∀ (l : List ι) (init : BitVec 1), l.foldl (fun r n => IntOp.ori r (f n)) init = 1#1 → init = 1#1 ∨ ∃ n ∈ l, f n = 1#1
  | [], init, h => .inl h
  | a :: l, init, h => by
    rcases foldl_ori_eq_one f l _ h with h1 | ⟨n, hn, hfn⟩
    · rcases IntOp.ori_eq_one.1 h1 with hi | ha
      · exact .inl hi
      · exact .inr ⟨a, List.mem_cons_self .., ha⟩
    · exact .inr ⟨n, List.mem_cons_of_mem _ hn, hfn⟩

/-- An `or`-reduction from 0 that is 1 at `j` met a 1 at some operand index that reduces into `j`. -/
theorem reduce_ori_eq_one {s t u : Shape} {axes : List (Fin s.rank)} (x : s.Idx → BitVec 1) (init : u.Idx → BitVec 1)
    (h : s.ReducesTo axes t) (hu : 0 < u.numel) (hinit : init (Shape.Idx.first hu) = 0#1)
    (j : t.Idx) (e : Host.reduce IntOp.ori x init h hu j = 1#1) : ∃ i : s.Idx, h.drop i = j ∧ x i = 1#1 := by
  rw [Host.reduce_eq_foldl] at e
  rcases foldl_ori_eq_one x _ _ e with h1 | ⟨i, hi, hxi⟩
  · rw [hinit] at h1; exact absurd h1 (by decide)
  · rw [List.mem_filter] at hi
    exact ⟨i, by simpa using hi.2, hxi⟩

/-- An extended real whose absolute value is below `+∞` is a real number. -/
theorem real_of_abs_lt_inf (x : EReal)
    (h : Ideal.cmp .olt (max x (-x)) (Ideal.ofBits .f32 0x7F800000#32) = 1#1) : x ≠ ⊤ ∧ x ≠ ⊥ := by
  have hinf : Ideal.ofBits .f32 0x7F800000#32 = ⊤ := by simp [Ideal.ofBits, Ideal.ieee]
  rw [hinf] at h
  have hb : ∀ b : Bool, BitVec.ofBool b = 1#1 → b = true := by decide
  have hlt : max x (-x) < ⊤ := of_decide_eq_true (hb _ h)
  constructor
  · rintro rfl; simp at hlt
  · rintro rfl; simp at hlt

/-- THE PRECONDITION READ BACK: queries, keys and values are real at every entry, and every query row of the mask
    has a key whose bit is clear. -/
theorem pre_read [Facts] (x0 x1 x2 : FVec Ideal S16x2048x64 .f32) (x3 : IVec S16x2048x2048 1)
    (h : fn (F := Ideal) x0 x1 x2 x3 = fun _ => 1#1) :
    (∀ i, x0 i ≠ ⊤ ∧ x0 i ≠ ⊥) ∧ (∀ i, x1 i ≠ ⊤ ∧ x1 i ≠ ⊥) ∧ (∀ i, x2 i ≠ ⊤ ∧ x2 i ≠ ⊥)
      ∧ ∀ (b : Fin 16) (r : Fin 2048), ∃ k : Fin 2048, x3 (ix3 b r k) = 0#1 := by
  have h0 := congrFun h ix0
  dsimp only [fn, fn_part1] at h0
  obtain ⟨h123, hR⟩ := IntOp.andi_eq_one.1 h0
  obtain ⟨h12, h3⟩ := IntOp.andi_eq_one.1 h123
  obtain ⟨h1, h2⟩ := IntOp.andi_eq_one.1 h12
  haveI : Subsingleton S_.Idx := ⟨fun a b => funext fun d => d.elim0⟩
  refine ⟨fun i => real_of_abs_lt_inf _ (Host.reduce_andi_all _ _ _ _ _ h1 i),
    fun i => real_of_abs_lt_inf _ (Host.reduce_andi_all _ _ _ _ _ h2 i),
    fun i => real_of_abs_lt_inf _ (Host.reduce_andi_all _ _ _ _ _ h3 i), fun b r => ?_⟩
  -- the row's `or`-reduction is 1: some key of the row has the negated bit set
  obtain ⟨i, hi, hxi⟩ := reduce_ori_eq_one _ _ _ _ rfl _ (Host.reduce_andi_all _ _ _ _ _ hR (ix2 b r))
  have hx : x3 i = 0#1 := by
    have hnot : ∀ w : BitVec 1, ~~~w = 1#1 → w = 0#1 := by decide
    exact hnot _ hxi
  have hi0 : (i 0).val = b.val := congrArg Fin.val (congrFun hi 0)
  have hi1 : (i 1).val = r.val := congrArg Fin.val (congrFun hi 1)
  refine ⟨⟨(i 2).val, (i 2).isLt⟩, ?_⟩
  have hix : ix3 b r (⟨(i 2).val, (i 2).isLt⟩ : Fin 2048) = i := funext fun a => Fin.ext (by
    match a with
    | ⟨0, _⟩ => exact hi0.symm
    | ⟨1, _⟩ => exact hi1.symm
    | ⟨2, _⟩ => rfl)
  rw [hix]; exact hx

end Cert.Attn.PreRead

end
-- ==== Proof.RowLaw.lean ====
/-
  The one law that joins the two programs, row by row, on the extended reals.

  Fix one query row. A key `k` has the score `s k = ∑ e, q e · K k e` and the un-normalised weight
  `w k = 0` when the key is masked, `exp (s k / 8)` otherwise. One program scales the query by `1/8` before
  the scores, sums `w k · v k` over the keys and divides ONCE by `D = ∑ k, w k`; the other divides the score
  by `8`, divides EVERY weight by `D` and then sums against `v`. For finite `q`, `K`, `v` every score is a real,
  every weight a real `≥ 0`, and if at least one key is unmasked `D` is a real `> 0`: both sides are then the real
  number `(∑ k, w k · v k) / D`. (With every key masked `D = 0` and the two sides are different junk values; that
  is what the hypothesis `∃ k, msk k = false` is for.)
-/
import Idealize.ShloMosaic.PureOps.Ideal
import Idealize.ShloMosaic.PureOps.Ideal.Laws

noncomputable section

namespace Cert.Attn

open Idealize.ShloMosaic

/-- A finite sum of real numbers, read in the extended reals, is the sum of the readings. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

variable {κ ε : Type} [Fintype κ] [Fintype ε]

/-- The un-normalised weight of a key: zero when it is masked, the exponential of its score otherwise. -/
def wgt (masked : Bool) (s : EReal) : EReal := if masked then 0 else Ideal.exp s

/-- The weight of a real score is a real number. -/
theorem wgt_coe (b : Bool) (x : ℝ) : wgt b (x : EReal) = ((if b then 0 else Real.exp x : ℝ) : EReal) := by
  cases b
  · simp [wgt, Ideal.exp_coe]
  · simp [wgt]

/-- One row, normalised AFTER the weighted sum: the query scaled by `c` first. -/
def rowAfter (c : EReal) (q : ε → EReal) (K : κ → ε → EReal) (v : κ → EReal) (msk : κ → Bool) : EReal :=
  Ideal.div (∑ k, wgt (msk k) (∑ e, (q e * c) * K k e) * v k) (∑ k, wgt (msk k) (∑ e, (q e * c) * K k e))

/-- One row, every weight normalised BEFORE the weighted sum: the score divided by `c'`, the row sum started at `z`. -/
def rowBefore (c' z : EReal) (q : ε → EReal) (K : κ → ε → EReal) (v : κ → EReal) (msk : κ → Bool) : EReal :=
  ∑ k, Ideal.div (wgt (msk k) (Ideal.div (∑ e, q e * K k e) c'))
      (z + ∑ j, wgt (msk j) (Ideal.div (∑ e, q e * K j e) c')) * v k

/-- THE LAW: for finite queries, keys and values and a row with an unmasked key, scaling by `1/8` and
    normalising after the sum is dividing by `8` and normalising before it. -/
theorem row_law (q : ε → EReal) (K : κ → ε → EReal) (v : κ → EReal) (msk : κ → Bool)
    (hq : ∀ e, q e ≠ ⊤ ∧ q e ≠ ⊥) (hK : ∀ k e, K k e ≠ ⊤ ∧ K k e ≠ ⊥) (hv : ∀ k, v k ≠ ⊤ ∧ v k ≠ ⊥)
    (hm : ∃ k, msk k = false) :
    rowAfter (((1 / 8 : ℝ) : ℝ) : EReal) q K v msk = rowBefore ((8 : ℝ) : EReal) 0 q K v msk := by
  lift q to ε → ℝ using hq
  lift K to κ → ε → ℝ using hK
  lift v to κ → ℝ using hv
  -- the real weight of each key, and the row's real denominator
  set w : κ → ℝ := fun k => if msk k then 0 else Real.exp ((∑ e, q e * K k e) * (1 / 8)) with hw
  have hw0 : ∀ k, 0 ≤ w k := fun k => by
    simp only [hw]; split
    · exact le_rfl
    · exact (Real.exp_pos _).le
  have hD : (∑ k, w k) ≠ 0 := by
    obtain ⟨k0, hk0⟩ := hm
    refine (Finset.sum_pos' (fun k _ => hw0 k) ⟨k0, Finset.mem_univ _, ?_⟩).ne'
    simp only [hw, hk0]; exact Real.exp_pos _
  -- both programs' weights are that real weight
  have hA : ∀ k, wgt (msk k) (∑ e, ((q e : EReal) * (((1 / 8 : ℝ) : ℝ) : EReal)) * (K k e : EReal)) = ((w k : ℝ) : EReal) := by
    intro k
    have : (∑ e, ((q e : EReal) * (((1 / 8 : ℝ) : ℝ) : EReal)) * (K k e : EReal))
        = (((∑ e, q e * K k e) * (1 / 8) : ℝ) : EReal) := by
      rw [Finset.sum_mul, ← coe_sum]
      refine Finset.sum_congr rfl fun e _ => ?_
      rw [← EReal.coe_mul, ← EReal.coe_mul]
      exact congrArg _ (by ring)
    rw [this, wgt_coe]
  have hB : ∀ k, wgt (msk k) (Ideal.div (∑ e, (q e : EReal) * (K k e : EReal)) ((8 : ℝ) : EReal)) = ((w k : ℝ) : EReal) := by
    intro k
    have : Ideal.div (∑ e, (q e : EReal) * (K k e : EReal)) ((8 : ℝ) : EReal)
        = (((∑ e, q e * K k e) * (1 / 8) : ℝ) : EReal) := by
      rw [Ideal.div_coe (by norm_num : (8 : ℝ) ≠ 0), EReal.coe_mul, ← coe_sum]
      exact congrArg (fun x : EReal => x * (((1 / 8 : ℝ) : ℝ) : EReal))
        (Finset.sum_congr rfl fun e _ => (EReal.coe_mul _ _).symm)
    rw [this, wgt_coe]
  unfold rowAfter rowBefore
  simp only [hA, hB, zero_add]
  rw [coe_sum]
  simp only [Ideal.div_coe hD]
  have h1 : (∑ k, ((w k : ℝ) : EReal) * ((v k : ℝ) : EReal)) = ((∑ k, w k * v k : ℝ) : EReal) := by
    rw [← coe_sum]; exact Finset.sum_congr rfl fun k _ => (EReal.coe_mul _ _).symm
  have h2 : (∑ k, ((w k : ℝ) : EReal) * (((1 / ∑ j, w j : ℝ) : ℝ) : EReal) * ((v k : ℝ) : EReal))
      = ((∑ k, w k * (1 / ∑ j, w j) * v k : ℝ) : EReal) := by
    rw [← coe_sum]
    exact Finset.sum_congr rfl fun k _ => by rw [← EReal.coe_mul, ← EReal.coe_mul]
  rw [h1, h2, ← EReal.coe_mul]
  refine congrArg _ ?_
  rw [Finset.sum_mul]
  exact Finset.sum_congr rfl fun k _ => by ring

end Cert.Attn

end
-- ==== Proof.Spec.lean ====
/-
  The attention output as ONE function of the four argument arrays, index by index, in the two arrangements the
  two programs use, and the law between them.

  At batch `b`, query row `r`, feature `d`: the query is `q[b, r, ·]`, the keys `k[b, ·, ·]`, the values' column
  `v[b, ·, d]`, and key `j` is masked when `mask[b, r, j]` is set. `outAfter` scales the query by 1/8 and divides
  the weighted sum once by the row's total weight; `outBefore` divides each score by 8 and each weight by the
  total before summing (Proof/RowLaw.lean).
-/
import proofs.«426548_j37125697307285_3_alg».proof.Proof.RowLaw
import Idealize.ShloMosaic.Lib.ValueIdx

noncomputable section

namespace Cert.Attn

open Idealize.ShloMosaic Idealize.ShloMosaic.ValueIdx

/-- The word of `0.125` denotes the real 1/8. -/
theorem ofBits_eighth : Ideal.ofBits .f32 0x3E000000#32 = (((1 / 8 : ℝ) : ℝ) : EReal) := by
  simp [Ideal.ofBits, Ideal.ieee, -EReal.coe_mul]; norm_num

/-- The word of `8.0` denotes the real 8. -/
theorem ofBits_eight : Ideal.ofBits .f32 0x41000000#32 = ((8 : ℝ) : EReal) := by
  simp [Ideal.ofBits, Ideal.ieee, -EReal.coe_mul]; norm_num

/-- A one-bit select between zero and an exponential is the weight of a key whose mask bit is the selector. -/
theorem select_eq_wgt (c : BitVec 1) (s : EReal) : Scalar.select c (0 : EReal) (Ideal.exp s) = wgt (c == 1#1) s := by
  unfold Scalar.select wgt
  by_cases h : c = 1#1 <;> simp [h]

abbrev SQ : Shape := ⟨3, ![16, 2048, 64]⟩
abbrev SM : Shape := ⟨3, ![16, 2048, 2048]⟩

variable (q k v : SQ.Idx → EReal) (mask : SM.Idx → BitVec 1)

/-- The output at `(b, r, d)`, normalised after the weighted sum. -/
def outAfter (b : Fin 16) (r : Fin 2048) (d : Fin 64) : EReal :=
  rowAfter (((1 / 8 : ℝ) : ℝ) : EReal) (fun e : Fin 64 => q (ix3 b r e)) (fun (j : Fin 2048) (e : Fin 64) => k (ix3 b j e))
    (fun j : Fin 2048 => v (ix3 b j d)) (fun j : Fin 2048 => mask (ix3 b r j) == 1#1)

/-- The output at `(b, r, d)`, every weight normalised before the sum. -/
def outBefore (b : Fin 16) (r : Fin 2048) (d : Fin 64) : EReal :=
  rowBefore ((8 : ℝ) : EReal) 0 (fun e : Fin 64 => q (ix3 b r e)) (fun (j : Fin 2048) (e : Fin 64) => k (ix3 b j e))
    (fun j : Fin 2048 => v (ix3 b j d)) (fun j : Fin 2048 => mask (ix3 b r j) == 1#1)

/-- The whole output array, in the first arrangement. -/
def G : SQ.Idx → EReal := fun i => outAfter q k v mask (i 0) (i 1) (i 2)

theorem G_apply (b : Fin 16) (r : Fin 2048) (d : Fin 64) : G q k v mask (ix3 b r d) = outAfter q k v mask b r d := rfl

/-- For real queries, keys and values and a mask that leaves a key in every row, the two arrangements agree. -/
theorem out_law (hq : ∀ i, q i ≠ ⊤ ∧ q i ≠ ⊥) (hk : ∀ i, k i ≠ ⊤ ∧ k i ≠ ⊥) (hv : ∀ i, v i ≠ ⊤ ∧ v i ≠ ⊥)
    (hm : ∀ (b : Fin 16) (r : Fin 2048), ∃ j : Fin 2048, mask (ix3 b r j) = 0#1) (b : Fin 16) (r : Fin 2048) (d : Fin 64) :
    outAfter q k v mask b r d = outBefore q k v mask b r d :=
  row_law _ _ _ _ (fun _ => hq _) (fun _ _ => hk _) (fun _ => hv _)
    (by obtain ⟨j, hj⟩ := hm b r; exact ⟨j, by rw [hj]; rfl⟩)

end Cert.Attn

end
-- ==== Proof.RefValue.lean ====
/-
  The reference's result at an index is `outBefore`: the scores `q · k` divided by 8, exponentiated, zeroed where
  the mask is set, each divided by its row's sum, then summed against the values.
-/
import proofs.«426548_j37125697307285_3_alg».proof.Proof.Gen.ReferenceIdeal.Read
import proofs.«426548_j37125697307285_3_alg».proof.Proof.Spec

noncomputable section

namespace Cert.Attn.RefValue

open Idealize.ShloMosaic Idealize.ShloMosaic.ValueIdx Cert.ReferenceIdeal Cert.ReferenceIdeal.Read

/-! The index maps of the reference's operations, at coordinates. -/

theorem lidx9 (b : Fin 16) (r : Fin 2048) (d : Fin 64) (j : Fin 2048) : lidx_main_v9 (ix3 b r d) j = ix3 b r j :=
  funext fun a => Fin.ext (by match a with | ⟨0, _⟩ => rfl | ⟨1, _⟩ => rfl | ⟨2, _⟩ => rfl)
theorem ridx9 (b : Fin 16) (r : Fin 2048) (d : Fin 64) (j : Fin 2048) : ridx_main_v9 (ix3 b r d) j = ix3 b j d :=
  funext fun a => Fin.ext (by match a with | ⟨0, _⟩ => rfl | ⟨1, _⟩ => rfl | ⟨2, _⟩ => rfl)
theorem lidx0 (b : Fin 16) (r j : Fin 2048) (e : Fin 64) : lidx_main_v0 (ix3 b r j) e = ix3 b r e :=
  funext fun a => Fin.ext (by match a with | ⟨0, _⟩ => rfl | ⟨1, _⟩ => rfl | ⟨2, _⟩ => rfl)
theorem ridx0 (b : Fin 16) (r j : Fin 2048) (e : Fin 64) : ridx_main_v0 (ix3 b r j) e = ix3 b j e :=
  funext fun a => Fin.ext (by match a with | ⟨0, _⟩ => rfl | ⟨1, _⟩ => rfl | ⟨2, _⟩ => rfl)
theorem idx5 (b : Fin 16) (r j j' : Fin 2048) : idx_main_v5 (idx_main_v6 (idx_main_v7 (ix3 b r j))) j' = ix3 b r j' :=
  funext fun a => Fin.ext (by match a with | ⟨0, _⟩ => rfl | ⟨1, _⟩ => rfl | ⟨2, _⟩ => rfl)

/-- The un-normalised weight the reference gives key `j` of row `(b, r)`. -/
theorem v4_apply (x0 x1 : SQ.Idx → EReal) (x3 : SM.Idx → BitVec 1) (b : Fin 16) (r j : Fin 2048) :
    val_main_v4 (F := Ideal) x0 x1 x3 (ix3 b r j)
      = wgt (x3 (ix3 b r j) == 1#1) (Ideal.div (∑ e : Fin 64, x0 (ix3 b r e) * x1 (ix3 b j e)) ((8 : ℝ) : EReal)) := by
  rw [val_main_v4_apply, val_main_call0_v1_apply, val_main_call0_v0_apply, val_main_cst_0_apply, val_main_v3_apply,
    val_main_v2_apply, val_main_v0_apply, val_main_v1_apply, val_main_cst_apply]
  simp only [lidx0, ridx0, Ideal.ofBits_def, Ideal.hostUnary_exp_def, Ideal.hostDivf_def, Ideal.ofBits_zero_f32, ofBits_eight]
  exact select_eq_wgt _ _

theorem ref_apply (x0 x1 x2 : SQ.Idx → EReal) (x3 : SM.Idx → BitVec 1) (b : Fin 16) (r : Fin 2048) (d : Fin 64) :
    val_main_v9 (F := Ideal) x0 x1 x2 x3 (ix3 b r d) = outBefore x0 x1 x2 x3 b r d := by
  rw [val_main_v9_apply]
  unfold outBefore rowBefore
  refine Finset.sum_congr rfl fun j _ => ?_
  rw [lidx9, ridx9, val_main_v8_apply, val_main_v7_apply, val_main_v6_apply, val_main_v5_apply, val_main_cst_1_apply, v4_apply]
  simp only [idx5, v4_apply, Ideal.hostDivf_def, Ideal.ofBits_def, Ideal.ofBits_zero_f32]

end Cert.Attn.RefValue

end
-- ==== Proof.KernelRow.lean ====
/-
  What one grid point's body stores, entry by entry: the row expression `rowAfter` of the point's blocks.

  The body scales the query block by 1/8, multiplies it against the key block (contracting the feature axis),
  exponentiates, zeroes the entries whose mask word is non-zero, sums each row, multiplies the weights against the
  value block (contracting the key axis) and divides each row by its sum.
-/
import proofs.«426548_j37125697307285_3_alg».proof.Proof.Gen.KernelIdeal.Skeleton
import proofs.«426548_j37125697307285_3_alg».proof.Proof.Spec
import Idealize.ShloMosaic.Lib.ValueLayout
import Idealize.ShloMosaic.Lib.Pipeline.Value
import Idealize.ShloMosaic.PureOps.Ideal.Laws

noncomputable section

namespace Cert.Attn.KernelRow

open Idealize.ShloMosaic Idealize.ShloMosaic.ValueIdx Cert.KernelIdeal Cert.KernelIdeal.Gen

variable {α : Type}

/-! ## Two layout operations read at coordinates -/

/-- A vector `[a]` kept as a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-! ## The row sum -/

/-- The lane sum of a `[1024, 2048]` block at row `r` is the sum of that row. -/
theorem rowsum_apply (x : FVec Ideal S1024x2048 .f32) (h : S1024x2048.Reduces [1] S1024) (hφ : FKind.Formats .f32)
    (hacc : (0x00000000#32 : BitVec 32) = FKind.add.neutral .f32 hφ) (r : Fin 1024) :
    multiReduction .add [1] S1024 x 0x00000000#32 h hφ hacc (ix1 r) = ∑ k : Fin 2048, x (ix2 r k) := by
  refine (Ideal.multiReduction_add_single x 0x00000000#32 h hφ hacc (ix1 r)).trans ?_
  refine Finset.sum_congr rfl fun k _ => congrArg x (funext fun a => Fin.ext ?_)
  match a with
  | ⟨0, _⟩ => rfl
  | ⟨1, _⟩ => rfl

/-! ## The two matrix products -/

theorem lhs_qk_0 (i : S1024x2048.Idx) (q : dot_S1024x64_S2048x64_S1024x2048_1_1_0_0_n_n.contr.Idx) :
    (dot_S1024x64_S2048x64_S1024x2048_1_1_0_0_n_n.lhsIdx i q 0).val = (i 0).val := by
  unfold DotDims.lhsIdx
  rw [dif_neg (show ¬(0 : Fin S1024x64.rank) ∈ dot_S1024x64_S2048x64_S1024x2048_1_1_0_0_n_n.lhsBatch by decide), dif_pos (show (0 : Fin S1024x64.rank) ∈ dot_S1024x64_S2048x64_S1024x2048_1_1_0_0_n_n.lhsNonContracting by decide)]
  rfl
theorem lhs_qk_1 (i : S1024x2048.Idx) (q : dot_S1024x64_S2048x64_S1024x2048_1_1_0_0_n_n.contr.Idx) :
    (dot_S1024x64_S2048x64_S1024x2048_1_1_0_0_n_n.lhsIdx i q 1).val = (q ⟨0, by decide⟩).val :=
  dot_S1024x64_S2048x64_S1024x2048_1_1_0_0_n_n.lhsIdx_val_of_single rfl i q
theorem rhs_qk_0 (i : S1024x2048.Idx) (q : dot_S1024x64_S2048x64_S1024x2048_1_1_0_0_n_n.contr.Idx) :
    (dot_S1024x64_S2048x64_S1024x2048_1_1_0_0_n_n.rhsIdx i q 0).val = (i 1).val := by
  unfold DotDims.rhsIdx
  rw [dif_neg (show ¬(0 : Fin S2048x64.rank) ∈ dot_S1024x64_S2048x64_S1024x2048_1_1_0_0_n_n.rhsBatch by decide), dif_pos (show (0 : Fin S2048x64.rank) ∈ dot_S1024x64_S2048x64_S1024x2048_1_1_0_0_n_n.rhsNonContracting by decide)]
  rfl
theorem rhs_qk_1 (i : S1024x2048.Idx) (q : dot_S1024x64_S2048x64_S1024x2048_1_1_0_0_n_n.contr.Idx) :
    (dot_S1024x64_S2048x64_S1024x2048_1_1_0_0_n_n.rhsIdx i q 1).val = (q ⟨0, by decide⟩).val :=
  dot_S1024x64_S2048x64_S1024x2048_1_1_0_0_n_n.rhsIdx_val_of_single rfl i q

/-- Queries against keys, the feature axis contracted: entry `(r, k)` is `∑ e, x[r, e] · y[k, e]`. -/
theorem scores_apply (x : FVec Ideal S1024x64 .f32) (y : FVec Ideal S2048x64 .f32) (r : Fin 1024) (k : Fin 2048) :
    matmul dot_S1024x64_S2048x64_S1024x2048_1_1_0_0_n_n none x y (constant S1024x2048 .f32 0x00000000#32) (ix2 r k)
      = ∑ e : Fin 64, x (ix2 r e) * y (ix2 k e) := by
  refine (Ideal.matmul_constant_zero_apply dot_S1024x64_S2048x64_S1024x2048_1_1_0_0_n_n none x y (ix2 r k)).trans ?_
  rw [← Equiv.sum_comp (ValueIdx.contrEquiv1 dot_S1024x64_S2048x64_S1024x2048_1_1_0_0_n_n 64 rfl rfl).symm]
  refine Finset.sum_congr rfl fun e _ => ?_
  have hk := ValueIdx.contrEquiv1_symm_val dot_S1024x64_S2048x64_S1024x2048_1_1_0_0_n_n 64 rfl rfl e
  have el : dot_S1024x64_S2048x64_S1024x2048_1_1_0_0_n_n.lhsIdx (ix2 r k) ((ValueIdx.contrEquiv1 dot_S1024x64_S2048x64_S1024x2048_1_1_0_0_n_n 64 rfl rfl).symm e) = ix2 r e := funext fun a => Fin.ext (by
    match a with
    | ⟨0, _⟩ => exact lhs_qk_0 _ _
    | ⟨1, _⟩ => exact (lhs_qk_1 _ _).trans hk)
  have er : dot_S1024x64_S2048x64_S1024x2048_1_1_0_0_n_n.rhsIdx (ix2 r k) ((ValueIdx.contrEquiv1 dot_S1024x64_S2048x64_S1024x2048_1_1_0_0_n_n 64 rfl rfl).symm e) = ix2 k e := funext fun a => Fin.ext (by
    match a with
    | ⟨0, _⟩ => exact rhs_qk_0 _ _
    | ⟨1, _⟩ => exact (rhs_qk_1 _ _).trans hk)
  rw [el, er]

theorem lhs_pv_0 (i : S1024x64.Idx) (q : dot_S1024x2048_S2048x64_S1024x64_1_0_0_1_n_n.contr.Idx) :
    (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
theorem lhs_pv_1 (i : S1024x64.Idx) (q : dot_S1024x2048_S2048x64_S1024x64_1_0_0_1_n_n.contr.Idx) :
    (dot_S1024x2048_S2048x64_S1024x64_1_0_0_1_n_n.lhsIdx i q 1).val = (q ⟨0, by decide⟩).val :=
  dot_S1024x2048_S2048x64_S1024x64_1_0_0_1_n_n.lhsIdx_val_of_single rfl i q
theorem rhs_pv_0 (i : S1024x64.Idx) (q : dot_S1024x2048_S2048x64_S1024x64_1_0_0_1_n_n.contr.Idx) :
    (dot_S1024x2048_S2048x64_S1024x64_1_0_0_1_n_n.rhsIdx i q 0).val = (q ⟨0, by decide⟩).val :=
  dot_S1024x2048_S2048x64_S1024x64_1_0_0_1_n_n.rhsIdx_val_of_single rfl i q
theorem rhs_pv_1 (i : S1024x64.Idx) (q : dot_S1024x2048_S2048x64_S1024x64_1_0_0_1_n_n.contr.Idx) :
    (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

/-- Weights against values, the key axis contracted: entry `(r, d)` is `∑ k, x[r, k] · y[k, d]`. -/
theorem weighted_apply (x : FVec Ideal S1024x2048 .f32) (y : FVec Ideal S2048x64 .f32) (r : Fin 1024) (d : Fin 64) :
    matmul dot_S1024x2048_S2048x64_S1024x64_1_0_0_1_n_n none x y (constant S1024x64 .f32 0x00000000#32) (ix2 r d)
      = ∑ k : Fin 2048, x (ix2 r k) * y (ix2 k d) := by
  refine (Ideal.matmul_constant_zero_apply dot_S1024x2048_S2048x64_S1024x64_1_0_0_1_n_n none x y (ix2 r d)).trans ?_
  rw [← Equiv.sum_comp (ValueIdx.contrEquiv1 dot_S1024x2048_S2048x64_S1024x64_1_0_0_1_n_n 2048 rfl rfl).symm]
  refine Finset.sum_congr rfl fun k _ => ?_
  have hk := ValueIdx.contrEquiv1_symm_val dot_S1024x2048_S2048x64_S1024x64_1_0_0_1_n_n 2048 rfl rfl k
  have el : dot_S1024x2048_S2048x64_S1024x64_1_0_0_1_n_n.lhsIdx (ix2 r d) ((ValueIdx.contrEquiv1 dot_S1024x2048_S2048x64_S1024x64_1_0_0_1_n_n 2048 rfl rfl).symm k) = ix2 r k := funext fun a => Fin.ext (by
    match a with
    | ⟨0, _⟩ => exact lhs_pv_0 _ _
    | ⟨1, _⟩ => exact (lhs_pv_1 _ _).trans hk)
  have er : dot_S1024x2048_S2048x64_S1024x64_1_0_0_1_n_n.rhsIdx (ix2 r d) ((ValueIdx.contrEquiv1 dot_S1024x2048_S2048x64_S1024x64_1_0_0_1_n_n 2048 rfl rfl).symm k) = ix2 k d := funext fun a => Fin.ext (by
    match a with
    | ⟨0, _⟩ => exact (rhs_pv_0 _ _).trans hk
    | ⟨1, _⟩ => exact rhs_pv_1 _ _)
  rw [el, er]

/-! ## The weights, and the stored block -/

/-- A key is masked when its mask word is non-zero. -/
def masked (w : BitVec 32) : Bool := IntOp.cmpi .ne w 0#32 == 1#1

/-- Entry `(r, k)` of the weights: zero where the mask word is non-zero, else the exponential of the score of the
    scaled query row `r` against key `k`. -/
theorem weights_apply (v0 : FVec Ideal S1x1024x64 .f32) (v4 : FVec Ideal S1x2048x64 .f32) (v8 : IVec S1x1024x2048 32)
    (h0 : S1x1024x64.ShapeCasts S1024x64) (h4 : S1x2048x64.ShapeCasts S2048x64) (h8 : S1x1024x2048.ShapeCasts S1024x2048)
    (r : Fin 1024) (k : Fin 2048) :
    select (cmpi .ne (shapeCast S1024x2048 v8 h8) (constantI S1024x2048 32 0#32)) (broadcast S1024x2048 (Scalar.ofBits (F := Ideal) .f32 0x00000000#32))
        (exp (matmul dot_S1024x64_S2048x64_S1024x2048_1_1_0_0_n_n none
          (mulf (shapeCast S1024x64 v0 h0) (broadcast S1024x64 (Scalar.ofBits (F := Ideal) .f32 0x3E000000#32)))
          (shapeCast S2048x64 v4 h4) (constant S1024x2048 .f32 0x00000000#32))) (ix2 r k)
      = wgt (masked (v8 (ix3 (0 : Fin 1) r k)))
          (∑ e : Fin 64, (v0 (ix3 (0 : Fin 1) r e) * (((1 / 8 : ℝ) : ℝ) : EReal)) * v4 (ix3 (0 : Fin 1) k e)) := by
  show Scalar.select (IntOp.cmpi .ne (shapeCast S1024x2048 v8 h8 (ix2 r k)) 0#32) (Ideal.ofBits .f32 0x00000000#32)
      (Ideal.exp (matmul dot_S1024x64_S2048x64_S1024x2048_1_1_0_0_n_n none
          (mulf (shapeCast S1024x64 v0 h0) (broadcast S1024x64 (Scalar.ofBits (F := Ideal) .f32 0x3E000000#32)))
          (shapeCast S2048x64 v4 h4) (constant S1024x2048 .f32 0x00000000#32) (ix2 r k))) = _
  rw [shapeCast_1ab_ab_apply, scores_apply, Ideal.ofBits_zero_f32, select_eq_wgt]
  unfold masked
  refine congrArg _ (Finset.sum_congr rfl fun e _ => ?_)
  show (shapeCast S1024x64 v0 h0 (ix2 r e) * Ideal.ofBits .f32 0x3E000000#32) * shapeCast S2048x64 v4 h4 (ix2 k e) = _
  rw [shapeCast_1ab_ab_apply, shapeCast_1ab_ab_apply, ofBits_eighth]

/-- THE STORED BLOCK at `(u, r, d)`: the row expression of query row `r` of the query block, the key block, column
    `d` of the value block and row `r` of the mask block. -/
theorem pay_apply (v0 : FVec Ideal S1x1024x64 .f32) (v4 : FVec Ideal S1x2048x64 .f32) (v8 : IVec S1x1024x2048 32)
    (v15 : FVec Ideal S1x2048x64 .f32) (u : Fin 1) (r : Fin 1024) (d : Fin 64) :
    k0_pay1 (F := Ideal) v0 v4 v8 v15 (ix3 u r d)
      = rowAfter ((((1 / 8 : ℝ) : ℝ)) : EReal) (fun e : Fin 64 => v0 (ix3 (0 : Fin 1) r e))
          (fun (k : Fin 2048) (e : Fin 64) => v4 (ix3 (0 : Fin 1) k e)) (fun k : Fin 2048 => v15 (ix3 (0 : Fin 1) k d))
          (fun k : Fin 2048 => masked (v8 (ix3 (0 : Fin 1) r k))) := by
  unfold k0_pay1
  dsimp only
  refine (shapeCast_ab_1ab_apply _ _ u r d).trans ?_
  unfold rowAfter
  refine congrArg₂ Ideal.div ?_ ?_
  · refine (weighted_apply _ _ r d).trans (Finset.sum_congr rfl fun k _ => ?_)
    exact congrArg₂ (· * ·) (weights_apply v0 v4 v8 _ _ _ r k) (shapeCast_1ab_ab_apply _ _ k d)
  · refine (broadcastTo_a1_ab_apply _ _ r d).trans ?_
    refine (shapeCast_a_a1_apply _ _ r (0 : Fin 1)).trans ?_
    refine (rowsum_apply _ _ _ _ r).trans (Finset.sum_congr rfl fun k _ => ?_)
    exact weights_apply v0 v4 v8 _ _ _ r k

/-- A mask bit widened to a word is non-zero exactly when the bit is set. -/
theorem masked_setWidth (w : BitVec 1) : masked (w.setWidth 32) = (w == 1#1) := by
  revert w; decide

/-- THE STORED BLOCK IS A BLOCK OF `G`: when the point's blocks are the arrays' rows — queries and mask rows
    `row r` of batch `b`, all keys and values of batch `b`, the mask bits widened to words — the body stores, at
    `(u, r, d)`, the whole-array function `G` at `(b, row r, d)`. -/
theorem block_eq (q k v : SQ.Idx → EReal) (mask : SM.Idx → BitVec 1)
    (x0 : FVec Ideal S1x1024x64 .f32) (x1 x2 : FVec Ideal S1x2048x64 .f32) (x3 : IVec S1x1024x2048 32)
    (b : Fin 16) (row : Fin 1024 → Fin 2048)
    (hq : ∀ (r : Fin 1024) (e : Fin 64), x0 (ix3 (0 : Fin 1) r e) = q (ix3 b (row r) e))
    (hk : ∀ (j : Fin 2048) (e : Fin 64), x1 (ix3 (0 : Fin 1) j e) = k (ix3 b j e))
    (hv : ∀ (j : Fin 2048) (d : Fin 64), x2 (ix3 (0 : Fin 1) j d) = v (ix3 b j d))
    (hm : ∀ (r : Fin 1024) (j : Fin 2048), x3 (ix3 (0 : Fin 1) r j) = (mask (ix3 b (row r) j)).setWidth 32)
    (u : Fin 1) (r : Fin 1024) (d : Fin 64) :
    k0_pay1 (F := Ideal) x0 x1 x3 x2 (ix3 u r d) = G q k v mask (ix3 b (row r) d) := by
  rw [pay_apply, G_apply]
  unfold outAfter
  simp only [hq, hk, hv, hm, masked_setWidth]

end Cert.Attn.KernelRow

end
-- ==== Proof.KernelValue.lean ====
/-
  From blocks to the array: after the run the kernel's result array is `G` of the four argument arrays.

  The grid has a point per batch `b` and half `h` of the query rows. At that point the query, mask and output
  windows hold rows `1024·h … 1024·h + 1023` of batch `b`, the key and value windows all of batch `b`; the mask
  array the region reads is the argument's bits widened to words by the host. So what a point writes back is its
  block of `G` (Proof/KernelRow.lean), and the 32 blocks tile the array.
-/
import proofs.«426548_j37125697307285_3_alg».proof.Proof.Gen.KernelIdeal.Value
import proofs.«426548_j37125697307285_3_alg».proof.Proof.KernelRow
import Idealize.ShloMosaic.Lib.Pipeline.Value
import Idealize.ShloMosaic.Lib.StableHlo.Run

noncomputable section

namespace Cert.Attn.KernelValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value Cert.Attn.KernelRow

variable (m : (ℓ : Loc nD τ sig) → Buf (Elt Ideal) ℓ) (ρ : Dev nD → PrngReg)

/-- The result array as one function of the launch contents of the four arguments. -/
abbrev Gk (c : Dev nD) : S16x2048x64.Idx → EReal :=
  G (m ((c : Thread nD τ).loc main_arg0)) (m ((c : Thread nD τ).loc main_arg1)) (m ((c : Thread nD τ).loc main_arg2))
    (m ((c : Thread nD τ).loc main_arg3))

theorem hz : (![0, 0, 0] : Fin 3 → Nat) = fun _ => 0 := funext fun a => by fin_cases a <;> rfl

/-- The printed index maps, decided over the 32 points: which block of its array each window holds. -/
theorem idx_facts : ∀ t : Fin cfg0.N,
    win0_0.index t (0 : Fin 3) = win0_4.index t (0 : Fin 3) ∧ win0_0.index t (1 : Fin 3) = win0_4.index t (1 : Fin 3) ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = win0_4.index t (1 : Fin 3) ∧ win0_3.index t (2 : Fin 3) = 0
    ∧ win0_4.index t (0 : Fin 3) < 16 ∧ win0_4.index t (1 : Fin 3) < 2 ∧ win0_4.index t (2 : Fin 3) = 0 :=
  (by decide +kernel : ∀ t : Fin grid0.N, _)

/-- Every (batch, half) is some point's output block. -/
theorem idx_onto : ∀ (q0 : Fin 16) (q1 : Fin 2), ∃ t : Fin cfg0.N, win0_4.index t = ![q0.val, q1.val, 0] :=
  (by decide +kernel : ∀ (q0 : Fin 16) (q1 : Fin 2), ∃ t : Fin grid0.N, win0_4.index t = ![q0.val, q1.val, 0])

/-- The mask array as the region finds it: the argument's bits, each widened to a word. -/
theorem V_mask (c : Dev nD) :
    (V m c main_v0 : S16x2048x2048.Idx → BitVec 32) = fun i => (m ((c : Thread nD τ).loc main_arg3) i).setWidth 32 := by
  dsimp only [V, hostOps0]
  after_results
  rfl

/-- WHAT POINT `t` WRITES BACK is block `t` of `G` of the argument arrays. -/
theorem flushed_eq (c : Dev nD) (t : Fin cfg0.N) :
    (dats m 0 c).flushed 4 t = ((cfg0.win 4).blk t).view.read (Elt Ideal) (Gk m c) := by
  rw [Value.flushed4]
  unfold out0_4
  rw [View.canon_unit_zero hz]
  simp only [View.ld_unit_zero (S := S1x1024x64) hz, View.ld_unit_zero (S := S1x2048x64) hz, View.ld_unit_zero (S := S1x1024x2048) hz]
  obtain ⟨a00, a01, a02, a10, a11, a12, a20, a21, a22, a30, a31, a32, b0, b1, b2⟩ := idx_facts t
  funext j
  have hj0 : (j 0).val < 1 := (j 0).isLt
  have hj1 : (j 1).val < 1024 := (j 1).isLt
  have hj2 : (j 2).val < 64 := (j 2).isLt
  show k0_pay1 (F := Ideal) (iblk m c 0 t) (iblk m c 1 t) (iblk m c 3 t) (iblk m c 2 t)
      (ix3 (⟨(j 0).val, hj0⟩ : Fin 1) (⟨(j 1).val, hj1⟩ : Fin 1024) (⟨(j 2).val, hj2⟩ : Fin 64))
    = Gk m c (((cfg0.win 4).blk t).view.emb j)
  refine (block_eq (m ((c : Thread nD τ).loc main_arg0)) (m ((c : Thread nD τ).loc main_arg1)) (m ((c : Thread nD τ).loc main_arg2))
    (m ((c : Thread nD τ).loc main_arg3)) (iblk m c 0 t) (iblk m c 1 t) (iblk m c 2 t) (iblk m c 3 t)
    (⟨win0_4.index t (0 : Fin 3), b0⟩ : Fin 16)
    (fun r : Fin 1024 => (⟨win0_4.index t (1 : Fin 3) * 1024 + r.val, by have := r.isLt; omega⟩ : Fin 2048)) ?_ ?_ ?_ ?_ _ _ _).trans ?_
  · intro r e
    show V m c main_arg0 (((cfg0.win 0).blk t).view.emb (ix3 (0 : Fin 1) r e)) = _
    rw [V_main_arg0]
    refine congrArg _ (funext fun a => Fin.ext ?_)
    match a with
    | ⟨0, _⟩ => show win0_0.index t (0 : Fin 3) * 1 + 1 * 0 = win0_4.index t (0 : Fin 3); omega
    | ⟨1, _⟩ => show win0_0.index t (1 : Fin 3) * 1024 + 1 * r.val = win0_4.index t (1 : Fin 3) * 1024 + r.val; omega
    | ⟨2, _⟩ => show win0_0.index t (2 : Fin 3) * 64 + 1 * e.val = e.val; omega
  · intro k e
    show V m c main_arg1 (((cfg0.win 1).blk t).view.emb (ix3 (0 : Fin 1) k e)) = _
    rw [V_main_arg1]
    refine congrArg _ (funext fun a => Fin.ext ?_)
    match a with
    | ⟨0, _⟩ => show win0_1.index t (0 : Fin 3) * 1 + 1 * 0 = win0_4.index t (0 : Fin 3); omega
    | ⟨1, _⟩ => show win0_1.index t (1 : Fin 3) * 2048 + 1 * k.val = k.val; omega
    | ⟨2, _⟩ => show win0_1.index t (2 : Fin 3) * 64 + 1 * e.val = e.val; omega
  · intro k d
    show V m c main_arg2 (((cfg0.win 2).blk t).view.emb (ix3 (0 : Fin 1) k d)) = _
    rw [V_main_arg2]
    refine congrArg _ (funext fun a => Fin.ext ?_)
    match a with
    | ⟨0, _⟩ => show win0_2.index t (0 : Fin 3) * 1 + 1 * 0 = win0_4.index t (0 : Fin 3); omega
    | ⟨1, _⟩ => show win0_2.index t (1 : Fin 3) * 2048 + 1 * k.val = k.val; omega
    | ⟨2, _⟩ => show win0_2.index t (2 : Fin 3) * 64 + 1 * d.val = d.val; omega
  · intro r k
    show (V m c main_v0 : S16x2048x2048.Idx → BitVec 32) (((cfg0.win 3).blk t).view.emb (ix3 (0 : Fin 1) r k)) = _
    rw [V_mask]
    refine congrArg (fun i => (m ((c : Thread nD τ).loc main_arg3) i).setWidth 32) (funext fun a => Fin.ext ?_)
    match a with
    | ⟨0, _⟩ => show win0_3.index t (0 : Fin 3) * 1 + 1 * 0 = win0_4.index t (0 : Fin 3); omega
    | ⟨1, _⟩ => show win0_3.index t (1 : Fin 3) * 1024 + 1 * r.val = win0_4.index t (1 : Fin 3) * 1024 + r.val; omega
    | ⟨2, _⟩ => show win0_3.index t (2 : Fin 3) * 2048 + 1 * k.val = k.val; omega
  · refine congrArg (Gk m c) (funext fun a => Fin.ext ?_)
    match a with
    | ⟨0, _⟩ => show win0_4.index t (0 : Fin 3) = win0_4.index t (0 : Fin 3) * 1 + 1 * (j 0).val; omega
    | ⟨1, _⟩ => show win0_4.index t (1 : Fin 3) * 1024 + (j 1).val = win0_4.index t (1 : Fin 3) * 1024 + 1 * (j 1).val; omega
    | ⟨2, _⟩ => show (j 2).val = win0_4.index t (2 : Fin 3) * 64 + 1 * (j 2).val; omega

/-- An index of the result array is in point `t`'s block iff each coordinate is in the block's range on its axis. -/
theorem mem_blk (t : Fin cfg0.N) (i : S16x2048x64.Idx) :
    i ∈ ((cfg0.win 4).blk t).view.set ↔ ∀ a : Fin 3, win0_4.index t a * S1x1024x64.size a ≤ (i a).val ∧ (i a).val < win0_4.index t a * S1x1024x64.size a + S1x1024x64.size a := by
  show i ∈ ((View.whole main_v1).slice (win0_4.rect t)).set ↔ _
  rw [View.set_slice_whole, Rect.mem_set_unit]
  exact Iff.rfl

/-- The 32 output blocks cover the result array: row `r` of batch `b` is in the block of (`b`, `r / 1024`). -/
theorem cover (i : S16x2048x64.Idx) : ∃ t : Fin cfg0.N, (cfg0.win 4).flush t = true ∧ i ∈ ((cfg0.win 4).blk t).view.set := by
  have hi0 : (i 0).val < 16 := (i 0).isLt
  have hi1 : (i 1).val < 2048 := (i 1).isLt
  have hi2 : (i 2).val < 64 := (i 2).isLt
  obtain ⟨t, ht⟩ := idx_onto ⟨(i 0).val, hi0⟩ ⟨(i 1).val / 1024, by omega⟩
  have q0 : win0_4.index t (0 : Fin 3) = (i 0).val := congrFun ht 0
  have q1 : win0_4.index t (1 : Fin 3) = (i 1).val / 1024 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 64 ≤ (i 2).val ∧ (i 2).val < win0_4.index t (2 : Fin 3) * 64 + 64; omega

/-- THE ARRAY after the run is `G` of the argument arrays. -/
theorem final (c : Dev nD) : (dats m 0 c).arrAt 4 cfg0.N = Gk m c :=
  (dats m 0 c).arrAt_eq_of_cover 4 (Gk m c) (fun t _ => flushed_eq m c t) (cover)

/-- The kernel's run, read: the result array at `G` of the arguments, the arguments unchanged. -/
theorem run : θ_run defs (onTc (τ := τ) (main (F := Ideal))) ⟨m, fun _ => 0, ρ⟩ fun r => ∀ c : Dev nD,
      r.2.mem ((c : Thread nD τ).loc main_v1) = Gk m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.Attn.KernelValue

end
-- ==== Proof.lean ====
/-
  Scaled dot-product attention without max-stabilisation, over f32[16, 2048, 64] queries, keys and values and a
  bool[16, 2048, 2048] mask (set = masked): the kernel against its jnp reference, on the extended reals.

  Both programs give key `j` of query row `(b, r)` the weight `w j = 0` if `mask[b, r, j]` is set and
  `exp (⟨q[b, r, ·], k[b, j, ·]⟩ / 8)` otherwise. The kernel scales the query by the exact dyadic 1/8 before the
  product, multiplies the un-normalised weights against the values and divides the result once by the row's total
  weight `D = ∑ j, w j`; the reference divides the scores by 8, divides every weight by `D` and then multiplies
  against the values. For real inputs both are the real number `(∑ j, w j · v[b, j, d]) / D` as soon as `D ≠ 0`,
  that is as soon as the row has an unmasked key (Proof/RowLaw.lean). On a fully masked row `D = 0`, the reference
  itself is `0 / 0`, and the two programs leave different junk values; the precondition therefore asks, beside
  finite float inputs, that every query row of the mask keeps at least one key (Proof/PreRead.lean reads both
  facts back from the printed predicate).

  The kernel's result array is read off its run block by block (Proof/KernelRow.lean: what one grid point stores;
  Proof/KernelValue.lean: the 32 blocks tile the array), the reference's off its run operation by operation
  (Proof/RefValue.lean). The three frames are the programs' runs with the result dropped; the idealization rewrote
  no operation, so there is nothing to preserve.
-/
import proofs.«426548_j37125697307285_3_alg».proof.Defs
import proofs.«426548_j37125697307285_3_alg».proof.Proof.Gen.Kernel
import proofs.«426548_j37125697307285_3_alg».proof.Proof.Gen.Kernel.Skeleton
import proofs.«426548_j37125697307285_3_alg».proof.Proof.Gen.Kernel.Launch
import proofs.«426548_j37125697307285_3_alg».proof.Proof.Gen.Kernel.Points
import proofs.«426548_j37125697307285_3_alg».proof.Proof.Gen.Kernel.Frame
import proofs.«426548_j37125697307285_3_alg».proof.Proof.Gen.KernelIdeal
import proofs.«426548_j37125697307285_3_alg».proof.Proof.Gen.KernelIdeal.Skeleton
import proofs.«426548_j37125697307285_3_alg».proof.Proof.Gen.KernelIdeal.Launch
import proofs.«426548_j37125697307285_3_alg».proof.Proof.Gen.KernelIdeal.Points
import proofs.«426548_j37125697307285_3_alg».proof.Proof.Gen.KernelIdeal.Frame
import proofs.«426548_j37125697307285_3_alg».proof.Proof.Gen.ReferenceIdeal
import proofs.«426548_j37125697307285_3_alg».proof.Proof.Gen.KernelIdeal.Value
import proofs.«426548_j37125697307285_3_alg».proof.Proof.Gen.ReferenceIdeal.Run
import proofs.«426548_j37125697307285_3_alg».proof.Proof.Gen.ReferenceIdeal.Read
import proofs.«426548_j37125697307285_3_alg».proof.Proof.Gen.Pre_finite_inputs
import proofs.«426548_j37125697307285_3_alg».proof.Proof.PreRead
import proofs.«426548_j37125697307285_3_alg».proof.Proof.RefValue
import proofs.«426548_j37125697307285_3_alg».proof.Proof.KernelValue
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result array at `G` of the arguments: the
    kernel by its run, the reference because its own arrangement of the same row expression equals `G` entry by
    entry for real inputs and a mask that leaves a key in every row. -/
theorem algebraic : Cert.algebraic_KernelIdeal_ReferenceIdeal := by
  intro m ρ m' ρ' hpre hagree
  refine ⟨fun c => Cert.Attn.KernelValue.Gk m c, Cert.Attn.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, (hagree c).1, (hagree c).2.1, (hagree c).2.2.1, (hagree c).2.2.2]
  obtain ⟨hq, hk, hv, hm⟩ := Cert.Attn.PreRead.pre_read _ _ _ _ (hpre c)
  funext i
  obtain ⟨b, r, d, rfl⟩ : ∃ (b : Fin 16) (r : Fin 2048) (d : Fin 64), i = ix3 b r d := ⟨i 0, i 1, i 2, eq_ix3 i⟩
  rw [Cert.Attn.RefValue.ref_apply]
  exact (Cert.Attn.out_law _ _ _ _ hq hk hv hm b r d).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
